-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4 : Shape := ⟨1, ![4]⟩
abbrev S256x128 : Shape := ⟨2, ![256, 128]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S4x4096x256 .f32) (main_arg1 : IVec S4 32) (main_arg2 : FVec F S256x128 .f32) (main_arg3 : FVec F S256x128 .f32) (main_arg4 : FVec F S256x128 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S4x4096x256 : Shape := ⟨3, ![4, 4096, 256]⟩
abbrev S4 : Shape := ⟨1, ![4]⟩
abbrev S256x128 : Shape := ⟨2, ![256, 128]⟩
abbrev S4x4096x128 : Shape := ⟨3, ![4, 4096, 128]⟩
abbrev S1x4096x256 : Shape := ⟨3, ![1, 4096, 256]⟩
abbrev S1x256x128 : Shape := ⟨3, ![1, 256, 128]⟩
abbrev S128x4096 : Shape := ⟨2, ![128, 4096]⟩
abbrev S4096x128 : Shape := ⟨2, ![4096, 128]⟩
abbrev S4096x256 : Shape := ⟨2, ![4096, 256]⟩
abbrev S1x256x256 : Shape := ⟨3, ![1, 256, 256]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S4, .i32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S4x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S1x256x128, .f32⟩
  | .local _ .vmem, ⟨6, _⟩ => ⟨S1x256x128, .f32⟩
  | .local _ .vmem, ⟨7, _⟩ => ⟨S128x4096, .bf16⟩
  | .local _ .vmem, ⟨8, _⟩ => ⟨S4096x128, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S4096x128_p1_0_S128x4096 : S4096x128.Transposes [1, 0] S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  h_S1x256x256 : 0 < S1x256x256.numel
  shapeCasts_S1x256x256_S256x256 : S1x256x256.ShapeCasts S256x256
  reduces_S256x4096_S256 : S256x4096.Reduces [1] S256
  shapeCasts_S256_S256x1 : S256.ShapeCasts S256x1
  broadcasts_S256x1_S256x4096 : S256x1.Broadcasts S256x4096
  broadcasts_S256x1_S256x128 : S256x1.Broadcasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S4096x256_S256x128_S4096x128_1_0_0_1_n_n_wf : DotDims.WF S4096x256 S256x128 S4096x128 [1] [0] [0] [1] [] []
  dot_S256x256_S256x128_S256x128_1_0_0_1_n_n_wf : DotDims.WF S256x256 S256x128 S256x128 [1] [0] [0] [1] [] []
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S4x4096x128.size a
  hwx0_4 : ∀ i : grid0.Coords, EltTy.bits .f32 = 32 ∨ (Rect.block (s := S4x4096x128) S1x256x128.size (cc0_transform_4 i) (hinb0_4 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4 : Shape := ⟨1, ![4]⟩
abbrev S256x128 : Shape := ⟨2, ![256, 128]⟩
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4, .i32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S4x4096x128, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x128_S4x4096x128_2_0_01_1_n_n_wf : DotDims.WF S4x4096x256 S256x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Pieces.lean ====
/-
  What each run of the body leaves in its buffers, as the body's stored values of what it loaded.

  At the first query tile of a batch (case A) the body stores the transposed keys and the values of the
  whole sequence block into its two scratch buffers, reads both back, and stores the tile's output
  computed from them. At every other tile (case B) it stores nothing into the scratch and computes
  the output from what the scratch already holds. In both cases the query rows are the tile's 256
  rows of the sequence block, read at the row offset `256 · (tile number)`. Each buffer is written by
  one store through its whole extent, so what it ends holding is that store's value.
-/
import proofs.«421127_j67104569033420_3_alg».proof.Proof.Gen.KernelIdeal.Frame
import Idealize.ShloMosaic.Lib.Pipeline.Value
import Idealize.ShloMosaic.Lib.Tactic

set_option maxRecDepth 16384

noncomputable section

namespace Cert.KernelIdeal.Attn

open Cert.KernelIdeal Cert.KernelIdeal.Gen Idealize.ShloMosaic Idealize.ShloMosaic.TcCoe Idealize.SL.Sem Idealize.ShloMosaic.Tactic

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The tile's query rows: the 256 rows of the sequence block from the tile's row offset. -/
abbrev queryTile (i : grid0.Coords) (x : Vec F S1x4096x256 .f32) : Vec F S1x256x256 .f32 :=
  View.ld x (Rect.unit (s := S1x4096x256) (k0_off1 i) S1x256x256.size (k0_off1_inb i))

/-- Case A leaves the transposed keys of the sequence block in the first scratch buffer. -/
theorem keys_piece (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x256x128 .f32) (harg6 : arg6.IsWhole) (arg7 : Memref sig .tc .vmem S128x4096 .bf16) (harg7 : arg7.IsWhole) (arg8 : Memref sig .tc .vmem S4096x128 .bf16) (harg8 : arg8.IsWhole) (hc0 : cond0_0 i)
    (x0 : Vec F S1x4096x256 .f32) (x1 : Vec F S256x128 .f32) (x2 : Vec F S256x128 .f32) (x3 : Vec F S256x128 .f32) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg2.read_unread, harg4.read_unread, View.ld_unit_zero (S := S1x4096x256) zeros3,
    View.ld_unit_zero (S := S256x128) zeros2]

/-- Case A leaves the values of the sequence block in the second scratch buffer. -/
theorem values_piece (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x256x128 .f32) (harg6 : arg6.IsWhole) (arg7 : Memref sig .tc .vmem S128x4096 .bf16) (harg7 : arg7.IsWhole) (arg8 : Memref sig .tc .vmem S4096x128 .bf16) (harg8 : arg8.IsWhole) (hc0 : cond0_0 i)
    (x0 : Vec F S1x4096x256 .f32) (x1 : Vec F S256x128 .f32) (x2 : Vec F S256x128 .f32) (x3 : Vec F S256x128 .f32) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg2.read_unread, harg5.read_unread, View.ld_unit_zero (S := S1x4096x256) zeros3,
    View.ld_unit_zero (S := S256x128) zeros2]

/-- Case A's output: the tile's attention against the keys and values it has just stored. -/
theorem out_piece_first (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x256x128 .f32) (harg6 : arg6.IsWhole) (arg7 : Memref sig .tc .vmem S128x4096 .bf16) (harg7 : arg7.IsWhole) (arg8 : Memref sig .tc .vmem S4096x128 .bf16) (harg8 : arg8.IsWhole) (hc0 : cond0_0 i)
    (x0 : Vec F S1x4096x256 .f32) (x1 : Vec F S256x128 .f32) (x2 : Vec F S256x128 .f32) (x3 : Vec F S256x128 .f32) :
    out0_A_4 c i arg2 harg2 arg3 harg3 arg4 harg4 arg5 harg5 arg6 harg6 arg7 harg7 arg8 harg8 hc0 x0 x1 x2 x3 = k0_pay4 (queryTile i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero zeros3]
  simp only [View.readAt_eq_ld, harg2.read_unread, harg3.read_unread, harg4.read_unread, harg5.read_unread,
    View.ld_unit_zero (S := S1x4096x256) zeros3, View.ld_unit_zero (S := S256x128) zeros2,
    View.readCov_unit_zero (S := S128x4096) _ zeros2, View.readCov_unit_zero (S := S4096x128) _ zeros2] <;> rfl

/-- Case B's output: the tile's attention against the keys and values the scratch already holds. -/
theorem out_piece_later (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x256x128 .f32) (harg6 : arg6.IsWhole) (arg7 : Memref sig .tc .vmem S128x4096 .bf16) (harg7 : arg7.IsWhole) (arg8 : Memref sig .tc .vmem S4096x128 .bf16) (harg8 : arg8.IsWhole) (hc0 : ¬cond0_0 i)
    (x0 : Vec F S1x4096x256 .f32) (x1 : Vec F S256x128 .f32) (x2 : Vec F S256x128 .f32) (x3 : Vec F S256x128 .f32)
    (xs0 : Vec F S128x4096 .bf16) (xs1 : Vec F S4096x128 .bf16) :
    out0_B_4 c i arg2 harg2 arg3 harg3 arg4 harg4 arg5 harg5 arg6 harg6 arg7 harg7 arg8 harg8 hc0 x0 x1 x2 x3 xs0 xs1 = k0_pay4 (queryTile i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero zeros3]
  simp only [View.readAt_eq_ld, harg2.read_unread, harg3.read_unread, harg7.read_unread, harg8.read_unread,
    View.ld_unit_zero (S := S256x128) zeros2, View.ld_unit_zero (S := S128x4096) zeros2, View.ld_unit_zero (S := S4096x128) zeros2] <;> rfl

end Cert.KernelIdeal.Attn

end
-- ==== Proof.RealLaws.lean ====
/-
  Laws of the extended reals that join the two attention formulas.

  A softmax row is computed from scores `sc s` (one per key `s`) and values `vv s`:
  with `M = max_s sc s` and weights `w s = exp (sc s - M)`,
    * the fused form divides once, after the weighted sum:  `(∑ s, w s * vv s) / (∑ s, w s)`;
    * the softmax-first form normalises each weight:         `∑ s, (w s / ∑ s', w s') * vv s`.
  On the extended reals these agree as soon as every score and every value is a real number: then
  `M` is a real (the maximum of finitely many reals, over a nonempty set of keys), every weight is a
  positive real, their sum is a positive real `l`, and dividing a finite sum of reals by `l` is the sum
  of the quotients. Without realness the identity can fail (an infinite term does not distribute).
-/
import Idealize.ShloMosaic.PureOps.Ideal
import Mathlib.Data.EReal.Basic
import Mathlib.Data.Finset.Lattice.Fold
import Mathlib.Analysis.SpecialFunctions.Exp

noncomputable section

namespace Attention

open Idealize.ShloMosaic

/-- An extended real that is (the image of) a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨x, rfl⟩ := ha; obtain ⟨y, rfl⟩ := hb
  exact ⟨x + y, (EReal.coe_add x y).symm⟩

theorem IsReal.mul {a b : EReal} (ha : IsReal a) (hb : IsReal b) : IsReal (a * b) := by
  obtain ⟨x, rfl⟩ := ha; obtain ⟨y, rfl⟩ := hb
  exact ⟨x * y, (EReal.coe_mul x y).symm⟩

/-- The coercion of a finite sum of reals is the sum of the coercions. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i, IsReal (f i)) :
    IsReal (∑ i ∈ s, f i) := by
  choose g hg using h
  refine ⟨∑ i ∈ s, g i, ?_⟩
  rw [← coe_sum]
  exact Finset.sum_congr rfl fun i _ => hg i

/-- A sum of products of reals (a dot product of two real rows) is real. -/
theorem isReal_dot {ι : Type*} [Fintype ι] (f g : ι → EReal) (hf : ∀ i, IsReal (f i)) (hg : ∀ i, IsReal (g i)) :
    IsReal (∑ i, f i * g i) :=
  isReal_sum _ _ fun i => (hf i).mul (hg i)

/-- The running maximum from `⊥` over a nonempty finite family of reals is one of them, hence real. -/
theorem isReal_fold_max {N : ℕ} (hN : 0 < N) (f : Fin N → EReal) (h : ∀ i, IsReal (f i)) :
    IsReal ((Finset.univ : Finset (Fin N)).fold max ⊥ f) := by
  have hne : (Finset.univ : Finset (Fin N)).Nonempty := ⟨⟨0, hN⟩, Finset.mem_univ _⟩
  obtain ⟨i, -, hi⟩ := Finset.exists_mem_eq_sup (Finset.univ : Finset (Fin N)) hne f
  have : (Finset.univ : Finset (Fin N)).fold max ⊥ f = (Finset.univ : Finset (Fin N)).sup f := rfl
  rw [this, hi]
  exact h i

/-! ## One softmax row -/

section Row
variable {N : ℕ}

/-- The row's maximum, as both programs take it: the running maximum from `-∞`. -/
def rowMax (sc : Fin N → EReal) : EReal := (Finset.univ : Finset (Fin N)).fold max ⊥ sc

/-- The unnormalised softmax weight of key `s`. -/
def weight (sc : Fin N → EReal) (s : Fin N) : EReal := Ideal.exp (sc s - rowMax sc)

/-- The fused form: the weighted sum of the values, divided once by the sum of the weights. -/
def fused (sc vv : Fin N → EReal) : EReal :=
  Ideal.div (∑ s, weight sc s * vv s) (∑ s, weight sc s)

/-- The softmax-first form: each weight normalised, then the weighted sum of the values. -/
def softmaxFirst (sc vv : Fin N → EReal) : EReal :=
  ∑ s, Ideal.div (weight sc s) (∑ s', weight sc s') * vv s

/-- With real scores every weight is a positive real. -/
theorem weight_pos (hN : 0 < N) (sc : Fin N → EReal) (h : ∀ s, IsReal (sc s)) (s : Fin N) :
    ∃ p : ℝ, 0 < p ∧ weight sc s = (p : EReal) := by
  obtain ⟨x, hx⟩ := h s
  obtain ⟨M, hM⟩ := isReal_fold_max hN sc h
  refine ⟨Real.exp (x - M), Real.exp_pos _, ?_⟩
  unfold weight rowMax
  rw [hx, hM, ← EReal.coe_sub]
  rfl

/-- The two forms agree on real scores and real values. -/
theorem fused_eq_softmaxFirst (hN : 0 < N) (sc vv : Fin N → EReal) (hsc : ∀ s, IsReal (sc s)) (hvv : ∀ s, IsReal (vv s)) :
    fused sc vv = softmaxFirst sc vv := by
  choose p hp0 hp using weight_pos hN sc hsc
  choose v hv using hvv
  have hl : (∑ s, weight sc s) = ((∑ s, p s : ℝ) : EReal) := by
    rw [← coe_sum]; exact Finset.sum_congr rfl fun s _ => hp s
  have hlpos : 0 < ∑ s, p s :=
    Finset.sum_pos (fun s _ => hp0 s) ⟨⟨0, hN⟩, Finset.mem_univ _⟩
  have hlne : (∑ s, p s) ≠ 0 := ne_of_gt hlpos
  unfold fused softmaxFirst
  rw [hl, Ideal.div_coe hlne]
  have hnum : (∑ s, weight sc s * vv s) = ((∑ s, p s * v s : ℝ) : EReal) := by
    rw [← coe_sum]; exact Finset.sum_congr rfl fun s _ => by rw [hp s, hv s, EReal.coe_mul]
  rw [hnum, ← EReal.coe_mul]
  have hterm : ∀ s, Ideal.div (weight sc s) ((∑ s, p s : ℝ) : EReal) * vv s
      = ((p s * (1 / ∑ s, p s) * v s : ℝ) : EReal) := fun s => by
    rw [Ideal.div_coe hlne, hp s, hv s, ← EReal.coe_mul, ← EReal.coe_mul]
  rw [Finset.sum_congr rfl fun s _ => hterm s, coe_sum]
  congr 1
  rw [Finset.sum_mul]
  exact Finset.sum_congr rfl fun s _ => by ring

end Row

end Attention

end
-- ==== Proof.RowOps.lean ====
/-
  Row-wise operations of a matrix read at an entry, at the ideal values.

  A softmax body takes, for each row `r` of an `[m, n]` matrix, its maximum and the sum of its
  exponentials, keeps them as a column `[m, 1]`, and broadcasts that column back over `[m, n]` (or over
  another width). Read at an entry `(r, c)`:
    * a vector `[m]` viewed as a column `[m, 1]` and broadcast to `[m, w]` is the vector's entry `r`;
    * the maximum-reduction along axis 1 from the word of `-∞` is the running maximum from `⊥` of row `r`;
    * the add-reduction along axis 1 from the zero word is the sum of row `r`.
-/
import Idealize.ShloMosaic.PureOps.Ideal.Laws
import Idealize.ShloMosaic.Lib.ValueIdx
import Idealize.ShloMosaic.Lib.Pipeline.Value

noncomputable section

namespace Attention

open Idealize.ShloMosaic Idealize.ShloMosaic.ValueIdx

/-- The f32 word `0xFF800000` denotes `-∞`, the bottom of the extended reals. -/
theorem ofBits_neg_inf : Ideal.ofBits .f32 0xFF800000#32 = (⊥ : EReal) := by
  simp [Ideal.ofBits, Ideal.ieee]

section Column
variable {α : Type}

/-- A vector `[m]` viewed as a column `[m, 1]` reads, at `(r, 0)`, the vector at `r`. -/
theorem shapeCast_a_a1_apply {m : ℕ} (x : (⟨1, ![m]⟩ : Shape).Idx → α) (h : (⟨1, ![m]⟩ : Shape).ShapeCasts ⟨2, ![m, 1]⟩)
    (r : Fin m) (u : Fin 1) : shapeCast ⟨2, ![m, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column `[m, 1]` broadcast to `[m, w]` reads, at `(r, c)`, the column at `(r, 0)`. -/
theorem broadcastTo_a1_ab_apply {m w : ℕ} (v : (⟨2, ![m, 1]⟩ : Shape).Idx → α) (h : (⟨2, ![m, 1]⟩ : Shape).Broadcasts ⟨2, ![m, w]⟩)
    (r : Fin m) (c : Fin w) : broadcastTo ⟨2, ![m, w]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

/-- A vector kept as a column and broadcast over a width: at `(r, c)` it is the vector at `r`. -/
theorem column_broadcast_apply {m w : ℕ} (x : (⟨1, ![m]⟩ : Shape).Idx → α) (h : (⟨1, ![m]⟩ : Shape).ShapeCasts ⟨2, ![m, 1]⟩)
    (h' : (⟨2, ![m, 1]⟩ : Shape).Broadcasts ⟨2, ![m, w]⟩) (r : Fin m) (c : Fin w) :
    broadcastTo ⟨2, ![m, w]⟩ (shapeCast ⟨2, ![m, 1]⟩ x h) h' (ix2 r c) = x (ix1 r) :=
  (broadcastTo_a1_ab_apply _ h' r c).trans (shapeCast_a_a1_apply x h r 0)

end Column

/-- Row `r` of an `[m, n]` matrix with column `k` put back is the entry `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The maximum-reduction of a matrix along its rows, from the word of `-∞`: at `r`, the running maximum from `⊥`
    over row `r`. -/
theorem rowMax_apply {m n : ℕ} (x : FVec Ideal ⟨2, ![m, n]⟩ .f32) (h : (⟨2, ![m, n]⟩ : Shape).Reduces [1] (⟨1, ![m]⟩ : Shape))
    (hφ : FKind.Formats .f32) (hacc : (0xFF800000#32 : BitVec 32) = FKind.maximumf.neutral .f32 hφ) (r : Fin m) :
    multiReduction .maximumf [1] ⟨1, ![m]⟩ x 0xFF800000#32 h hφ hacc (ix1 r)
      = (Finset.univ : Finset (Fin n)).fold max ⊥ (fun s => x (ix2 r s)) := by
  rw [Ideal.multiReduction_maximumf_single]
  have hf : (x ∘ h.lift (ix1 r)) = fun k : Fin n => x (ix2 r k) := funext fun k => congrArg x (lift_row h r k)
  have hb : (FloatOps.ofBits .f32 0xFF800000#32 : Ideal .f32) = (⊥ : EReal) := ofBits_neg_inf
  rw [hb]
  exact congrArg (fun f => Finset.fold max (⊥ : EReal) f (Finset.univ : Finset (Fin n))) hf

/-- The add-reduction of a matrix along its rows, from the zero word: at `r`, the sum of row `r`. -/
theorem rowSum_apply {m n : ℕ} (x : FVec Ideal ⟨2, ![m, n]⟩ .f32) (h : (⟨2, ![m, n]⟩ : Shape).Reduces [1] (⟨1, ![m]⟩ : Shape))
    (hφ : FKind.Formats .f32) (hacc : (0x00000000#32 : BitVec 32) = FKind.add.neutral .f32 hφ) (r : Fin m) :
    multiReduction .add [1] ⟨1, ![m]⟩ x 0x00000000#32 h hφ hacc (ix1 r) = ∑ s : Fin n, x (ix2 r s) := by
  rw [Ideal.multiReduction_add_single]
  exact Finset.sum_congr rfl fun k _ => congrArg x (lift_row h r k)

end Attention

end
-- ==== Proof.PlainMatmul.lean ====
/-
  A plain matrix product read at an entry, at the ideal values.

  For dimension numbers that contract the left operand's columns with the right operand's rows and
  have no batch axis (`[M, K] × [K, N] → [M, N]`), the product onto a zero accumulator is, at
  entry `(r, c)`, the textbook sum `∑ k, lhs (r, k) * rhs (k, c)`. The left index at result `(r, c)`
  and contraction position `k` is `(r, k)`: its row is the result's first coordinate (the left
  operand's only free axis sits first among the result's axes), its column the contraction
  coordinate; the right index is `(k, c)` likewise. The contraction index has one axis, so the sum
  over it is a sum over `Fin K`.
-/
import Idealize.ShloMosaic.PureOps.Ideal.Laws
import Idealize.ShloMosaic.Lib.ValueIdx

noncomputable section

namespace Attention

open Idealize.ShloMosaic Idealize.ShloMosaic.ValueIdx

section Plain
variable {M K N : ℕ} (d : DotDims ⟨2, ![M, K]⟩ ⟨2, ![K, N]⟩ ⟨2, ![M, N]⟩)

/-- Equal positions among the result's axes read equal coordinates. -/
private theorem coord_congr (j : (⟨2, ![M, N]⟩ : Shape).Idx) (p q : ℕ) (hp : p < 2) (hq : q < 2) (h : p = q) :
    (j ⟨p, hp⟩).val = (j ⟨q, hq⟩).val := by subst h; rfl

/-- The left operand's row is the result's row. -/
theorem plain_lhs_row (hln : d.lhsNonContracting = [0]) (hlb : d.lhsBatch = [])
    (j : (⟨2, ![M, N]⟩ : Shape).Idx) (k : d.contr.Idx) : (d.lhsIdx j k 0).val = (j 0).val := by
  have hb : ¬(0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_congr j _ _ _ _ (by simp [hlb, hln])

/-- The right operand's column is the result's column. -/
theorem plain_rhs_col (hln : d.lhsNonContracting = [0]) (hlb : d.lhsBatch = []) (hrn : d.rhsNonContracting = [1])
    (hrb : d.rhsBatch = []) (j : (⟨2, ![M, N]⟩ : Shape).Idx) (k : d.contr.Idx) : (d.rhsIdx j k 1).val = (j 1).val := by
  have hb : ¬(1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE PRODUCT AT AN ENTRY: onto the zero accumulator, the sum over the shared axis. -/
theorem plain_matmul_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = K) (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact plain_lhs_row d hln hlb _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact plain_rhs_col d hln hlb hrn hrb _ _)
  rw [el, er]

end Plain

end Attention

end
-- ==== Proof.Payloads.lean ====
/-
  What the kernel body stores, read at an entry, at the ideal values (where a change of float format is
  the identity).

  At the first query tile of a batch the body stores the batch's keys, transposed, and its values:
    keysT (e, s)  = ∑ d, x (s, d) * Wk (d, e)        values (s, e) = ∑ d, x (s, d) * Wv (d, e)
  over all 4096 positions `s` of the batch's block `x`. At every tile it stores, for the tile's 256
  query rows `r`, with the query `q (r, e') = ∑ d, xq (r, d) * Wq (d, e')`:
    score (r, s)  = ∑ e', q (r, e') * keysT (e', s)
    out (r, e)    = (∑ s, w (r, s) * values (s, e)) / (∑ s, w (r, s)),   w (r, s) = exp (score (r, s) - max_s' score (r, s'))
  that is, the fused softmax row of `RealLaws` on the score row and the values' column `e`.
  The body's value is cut in three stages (scores; exponentials; weighted sum and quotient), each read
  for an arbitrary operand, so that no stage's term is repeated inside another.
-/
import proofs.«421127_j67104569033420_3_alg».proof.Proof.Gen.KernelIdeal.Skeleton
import proofs.«421127_j67104569033420_3_alg».proof.Proof.RealLaws
import proofs.«421127_j67104569033420_3_alg».proof.Proof.RowOps
import proofs.«421127_j67104569033420_3_alg».proof.Proof.PlainMatmul
import Idealize.ShloMosaic.Lib.ValueLayout

noncomputable section

namespace Cert.KernelIdeal.Attn

open Cert.KernelIdeal Cert.KernelIdeal.Gen Idealize.ShloMosaic Idealize.ShloMosaic.ValueIdx

/-! ## The four products of the body -/

/-- A whole sequence block times a weight matrix: `[4096, 256] × [256, 128]`. -/
theorem matmulSeq_apply {φ₁ φ₂ : FTy} (lhs : FVec Ideal S4096x256 φ₁) (rhs : FVec Ideal S256x128 φ₂) (s : Fin 4096) (e : Fin 128) :
    matmul dot_S4096x256_S256x128_S4096x128_1_0_0_1_n_n none lhs rhs (constant S4096x128 .f32 0x00000000#32) (ix2 s e)
      = ∑ d : Fin 256, lhs (ix2 s d) * rhs (ix2 d e) :=
  Attention.plain_matmul_apply dot_S4096x256_S256x128_S4096x128_1_0_0_1_n_n rfl rfl rfl rfl rfl rfl rfl rfl none lhs rhs s e

/-- A query tile times the query weights: `[256, 256] × [256, 128]`. -/
theorem matmulTile_apply {φ₁ φ₂ : FTy} (lhs : FVec Ideal S256x256 φ₁) (rhs : FVec Ideal S256x128 φ₂) (r : Fin 256) (e : Fin 128) :
    matmul dot_S256x256_S256x128_S256x128_1_0_0_1_n_n none lhs rhs (constant S256x128 .f32 0x00000000#32) (ix2 r e)
      = ∑ d : Fin 256, lhs (ix2 r d) * rhs (ix2 d e) :=
  Attention.plain_matmul_apply dot_S256x256_S256x128_S256x128_1_0_0_1_n_n rfl rfl rfl rfl rfl rfl rfl rfl none lhs rhs r e

/-- The queries times the transposed keys: `[256, 128] × [128, 4096]`. -/
theorem matmulScore_apply {φ₁ φ₂ : FTy} (lhs : FVec Ideal S256x128 φ₁) (rhs : FVec Ideal S128x4096 φ₂) (r : Fin 256) (s : Fin 4096) :
    matmul dot_S256x128_S128x4096_S256x4096_1_0_0_1_n_n none lhs rhs (constant S256x4096 .f32 0x00000000#32) (ix2 r s)
      = ∑ e : Fin 128, lhs (ix2 r e) * rhs (ix2 e s) :=
  Attention.plain_matmul_apply dot_S256x128_S128x4096_S256x4096_1_0_0_1_n_n rfl rfl rfl rfl rfl rfl rfl rfl none lhs rhs r s

/-- The weights times the values: `[256, 4096] × [4096, 128]`. -/
theorem matmulMix_apply {φ₁ φ₂ : FTy} (lhs : FVec Ideal S256x4096 φ₁) (rhs : FVec Ideal S4096x128 φ₂) (r : Fin 256) (e : Fin 128) :
    matmul dot_S256x4096_S4096x128_S256x128_1_0_0_1_n_n none lhs rhs (constant S256x128 .f32 0x00000000#32) (ix2 r e)
      = ∑ s : Fin 4096, lhs (ix2 r s) * rhs (ix2 s e) :=
  Attention.plain_matmul_apply dot_S256x4096_S4096x128_S256x128_1_0_0_1_n_n rfl rfl rfl rfl rfl rfl rfl rfl none lhs rhs r e

/-! ## The keys and the values the first tile of a batch stores -/

/-- The sequence block as the products read it: its leading unit axis dropped, the format change the identity. -/
theorem seqRows_apply (x : Vec Ideal S1x4096x256 .f32) (s : Fin 4096) (d : Fin 256) :
    k0_pay1 (F := Ideal) x (ix2 s d) = x (ix3 (0 : Fin 1) s d) := by
  unfold k0_pay1
  exact shapeCast_1ab_ab_apply x _ s d

/-- The stored keys, transposed: entry `(e, s)` is position `s`'s key coordinate `e`. -/
theorem keysT_apply (x : Vec Ideal S1x4096x256 .f32) (wk : Vec Ideal S256x128 .f32) (e : Fin 128) (s : Fin 4096) :
    k0_pay2 (F := Ideal) x wk (ix2 e s) = ∑ d : Fin 256, x (ix3 (0 : Fin 1) s d) * wk (ix2 d e) := by
  unfold k0_pay2
  rw [shapeCast_self]
  refine (transpose_ix2_apply _ _ e s).trans ?_
  refine (matmulSeq_apply (φ₁ := .bf16) (φ₂ := .bf16) _ _ s e).trans ?_
  exact Finset.sum_congr rfl fun d _ => congrArg (· * wk (ix2 d e)) (seqRows_apply x s d)

/-- The stored values: entry `(s, e)` is position `s`'s value coordinate `e`. -/
theorem values_apply (x : Vec Ideal S1x4096x256 .f32) (wv : Vec Ideal S256x128 .f32) (s : Fin 4096) (e : Fin 128) :
    k0_pay3 (F := Ideal) x wv (ix2 s e) = ∑ d : Fin 256, x (ix3 (0 : Fin 1) s d) * wv (ix2 d e) := by
  unfold k0_pay3
  rw [shapeCast_self]
  refine (matmulSeq_apply (φ₁ := .bf16) (φ₂ := .bf16) _ _ s e).trans ?_
  exact Finset.sum_congr rfl fun d _ => congrArg (· * wv (ix2 d e)) (seqRows_apply x s d)

/-! ## The tile's output, in three stages -/

/-- Stage 1: the tile's scores against the stored keys. -/
def tileScores (xq : Vec Ideal S1x256x256 .f32) (wq : Vec Ideal S256x128 .f32) (kT : Vec Ideal S128x4096 .bf16) : FVec Ideal S256x4096 .f32 :=
  matmul (φ₁ := .bf16) (φ₂ := .bf16) dot_S256x128_S128x4096_S256x4096_1_0_0_1_n_n none
    (truncf .bf16 (matmul dot_S256x256_S256x128_S256x128_1_0_0_1_n_n none
      (truncf .bf16 (shapeCast S256x256 xq shapeCasts_S1x256x256_S256x256) bitsLt_bf16_f32) (truncf .bf16 wq bitsLt_bf16_f32)
      (constant S256x128 .f32 0x00000000#32)) bitsLt_bf16_f32)
    kT (constant S256x4096 .f32 0x00000000#32)

/-- Stage 2: the exponentials of the scores less their row's maximum. -/
def tileWeights (sc : FVec Ideal S256x4096 .f32) : FVec Ideal S256x4096 .f32 :=
  exp (subf sc (broadcastTo S256x4096
    (shapeCast S256x1 (multiReduction .maximumf [1] S256 sc 0xFF800000#32 reduces_S256x4096_S256 (.inl rfl) rfl) shapeCasts_S256_S256x1)
    broadcasts_S256x1_S256x4096))

/-- Stage 3: the weighted sum of the values, divided by the row's sum of weights, as the output block. -/
def tileMix (p : FVec Ideal S256x4096 .f32) (vals : Vec Ideal S4096x128 .bf16) : FVec Ideal S1x256x128 .f32 :=
  shapeCast S1x256x128
    (divf (matmul (φ₁ := .bf16) (φ₂ := .bf16) dot_S256x4096_S4096x128_S256x128_1_0_0_1_n_n none (truncf .bf16 p bitsLt_bf16_f32) vals (constant S256x128 .f32 0x00000000#32))
      (broadcastTo S256x128
        (shapeCast S256x1 (multiReduction .add [1] S256 p 0x00000000#32 reduces_S256x4096_S256 (.inl rfl) rfl) shapeCasts_S256_S256x1)
        broadcasts_S256x1_S256x128))
    shapeCasts_S256x128_S1x256x128

/-- The body's stored output is the three stages composed. -/
theorem out_eq_stages (xq : Vec Ideal S1x256x256 .f32) (wq : Vec Ideal S256x128 .f32) (kT : Vec Ideal S128x4096 .bf16)
    (vals : Vec Ideal S4096x128 .bf16) :
    k0_pay4 (F := Ideal) xq wq kT vals = tileMix (tileWeights (tileScores xq wq kT)) vals := rfl

/-- The score of query row `r` against position `s`. -/
theorem tileScores_apply (xq : Vec Ideal S1x256x256 .f32) (wq : Vec Ideal S256x128 .f32) (kT : Vec Ideal S128x4096 .bf16)
    (r : Fin 256) (s : Fin 4096) :
    tileScores xq wq kT (ix2 r s)
      = ∑ e : Fin 128, (∑ d : Fin 256, xq (ix3 (0 : Fin 1) r d) * wq (ix2 d e)) * kT (ix2 e s) := by
  unfold tileScores
  refine (matmulScore_apply (φ₁ := .bf16) (φ₂ := .bf16) _ _ r s).trans ?_
  refine Finset.sum_congr rfl fun e _ => congrArg (· * kT (ix2 e s)) ?_
  refine (matmulTile_apply (φ₁ := .bf16) (φ₂ := .bf16) _ _ r e).trans ?_
  exact Finset.sum_congr rfl fun d _ => congrArg (· * wq (ix2 d e)) (shapeCast_1ab_ab_apply xq _ r d)

/-- A weight is the softmax weight of its score row. -/
theorem tileWeights_apply (sc : FVec Ideal S256x4096 .f32) (r : Fin 256) (s : Fin 4096) :
    tileWeights sc (ix2 r s) = Attention.weight (fun s' : Fin 4096 => sc (ix2 r s')) s := by
  unfold tileWeights Attention.weight Attention.rowMax
  show Ideal.exp (sc (ix2 r s) - _) = Ideal.exp (sc (ix2 r s) - _)
  refine congrArg (fun z => Ideal.exp (sc (ix2 r s) - z)) ?_
  exact (Attention.column_broadcast_apply _ _ _ r s).trans (Attention.rowMax_apply sc _ _ _ r)

/-- The output entry from the weights: their mix of the values' column, over their sum. -/
theorem tileMix_apply (p : FVec Ideal S256x4096 .f32) (vals : Vec Ideal S4096x128 .bf16) (r : Fin 256) (e : Fin 128) :
    tileMix p vals (ix3 (0 : Fin 1) r e)
      = Ideal.div (∑ s : Fin 4096, p (ix2 r s) * vals (ix2 s e)) (∑ s : Fin 4096, p (ix2 r s)) := by
  unfold tileMix
  refine (shapeCast_ab_1ab_apply _ _ 0 r e).trans ?_
  show Ideal.div _ _ = _
  refine congrArg₂ Ideal.div ?_ ?_
  · exact matmulMix_apply (φ₁ := .bf16) (φ₂ := .bf16) _ _ r e
  · exact (Attention.column_broadcast_apply _ _ _ r e).trans (Attention.rowSum_apply p _ _ _ r)

/-- THE TILE'S OUTPUT at row `r`, coordinate `e`: the fused softmax row of the scores of `r` and the values' column `e`. -/
theorem out_apply (xq : Vec Ideal S1x256x256 .f32) (wq : Vec Ideal S256x128 .f32) (kT : Vec Ideal S128x4096 .bf16)
    (vals : Vec Ideal S4096x128 .bf16) (r : Fin 256) (e : Fin 128) :
    k0_pay4 (F := Ideal) xq wq kT vals (ix3 (0 : Fin 1) r e)
      = Attention.fused (fun s : Fin 4096 => ∑ e' : Fin 128, (∑ d : Fin 256, xq (ix3 (0 : Fin 1) r d) * wq (ix2 d e')) * kT (ix2 e' s))
          (fun s : Fin 4096 => vals (ix2 s e)) := by
  rw [out_eq_stages, tileMix_apply]
  unfold Attention.fused
  have hw : ∀ s : Fin 4096, tileWeights (tileScores xq wq kT) (ix2 r s)
      = Attention.weight (fun s' : Fin 4096 => ∑ e' : Fin 128, (∑ d : Fin 256, xq (ix3 (0 : Fin 1) r d) * wq (ix2 d e')) * kT (ix2 e' s')) s := fun s => by
    rw [tileWeights_apply]
    exact congrArg (fun f => Attention.weight f s) (funext fun s' => tileScores_apply xq wq kT r s')
  refine congrArg₂ Ideal.div ?_ ?_
  · exact Finset.sum_congr rfl fun s _ => congrArg (· * vals (ix2 s e)) (hw s)
  · exact Finset.sum_congr rfl fun s _ => hw s

end Cert.KernelIdeal.Attn

end
-- ==== Proof.Spec.lean ====
/-
  Unscaled dot-product self-attention over `[4, 4096, 256]` sequences with `[256, 128]` weights, as ONE
  function of the argument arrays, entry by entry, in its two arrangements.

  For batch `b`, with the projections `q, k, v (b, s, e) = ∑ d, X (b, s, d) * W (d, e)` and the scores
  `score (b, r, s) = ∑ e, q (b, r, e) * k (b, s, e)`, the output entry `(b, r, e)` is a softmax row of the
  scores of query `r` mixed with the values' column `e`:
    * `attnFused`        — the weighted sum first, one division by the sum of the weights after it;
    * `attnSoftmaxFirst` — every weight normalised first, then the weighted sum.
  With every input entry a real number the scores and the values are real (finite sums of products of
  reals), so the two agree by the row law of `RealLaws`.
-/
import proofs.«421127_j67104569033420_3_alg».proof.Proof.RealLaws
import Idealize.ShloMosaic.Lib.ValueIdx

noncomputable section

namespace Attention

open Idealize.ShloMosaic Idealize.ShloMosaic.ValueIdx

variable (X : (⟨3, ![4, 4096, 256]⟩ : Shape).Idx → EReal) (Wq Wk Wv W : (⟨2, ![256, 128]⟩ : Shape).Idx → EReal)

/-- A projection of position `s` of batch `b`: coordinate `e` of `X (b, s, ·) · W`. -/
def proj (b : Fin 4) (s : Fin 4096) (e : Fin 128) : EReal := ∑ d : Fin 256, X (ix3 b s d) * W (ix2 d e)

/-- The score of query position `r` against key position `s` in batch `b`. -/
def score (b : Fin 4) (r s : Fin 4096) : EReal := ∑ e : Fin 128, proj X Wq b r e * proj X Wk b s e

/-- Attention with the normalisation after the weighted sum. -/
def attnFused : (⟨3, ![4, 4096, 128]⟩ : Shape).Idx → EReal := fun i =>
  fused (fun s : Fin 4096 => score X Wq Wk ⟨(i 0).val, (i 0).isLt⟩ ⟨(i 1).val, (i 1).isLt⟩ s)
    (fun s : Fin 4096 => proj X Wv ⟨(i 0).val, (i 0).isLt⟩ s ⟨(i 2).val, (i 2).isLt⟩)

/-- Attention with the softmax normalised before the weighted sum. -/
def attnSoftmaxFirst : (⟨3, ![4, 4096, 128]⟩ : Shape).Idx → EReal := fun i =>
  softmaxFirst (fun s : Fin 4096 => score X Wq Wk ⟨(i 0).val, (i 0).isLt⟩ ⟨(i 1).val, (i 1).isLt⟩ s)
    (fun s : Fin 4096 => proj X Wv ⟨(i 0).val, (i 0).isLt⟩ s ⟨(i 2).val, (i 2).isLt⟩)

theorem isReal_proj (hX : ∀ i, IsReal (X i)) (hW : ∀ i, IsReal (W i)) (b : Fin 4) (s : Fin 4096) (e : Fin 128) :
    IsReal (proj X W b s e) :=
  isReal_dot _ _ (fun d => hX (ix3 b s d)) (fun d => hW (ix2 d e))

theorem isReal_score (hX : ∀ i, IsReal (X i)) (hq : ∀ i, IsReal (Wq i)) (hk : ∀ i, IsReal (Wk i)) (b : Fin 4) (r s : Fin 4096) :
    IsReal (score X Wq Wk b r s) :=
  isReal_dot _ _ (fun e => isReal_proj X Wq hX hq b r e) (fun e => isReal_proj X Wk hX hk b s e)

/-- On real inputs the two arrangements are one function. -/
theorem attnFused_eq_softmaxFirst (hX : ∀ i, IsReal (X i)) (hq : ∀ i, IsReal (Wq i)) (hk : ∀ i, IsReal (Wk i))
    (hv : ∀ i, IsReal (Wv i)) : attnFused X Wq Wk Wv = attnSoftmaxFirst X Wq Wk Wv :=
  funext fun i => fused_eq_softmaxFirst (by decide) _ _
    (fun s => isReal_score X Wq Wk hX hq hk _ _ s) (fun s => isReal_proj X Wv hX hv _ s _)

end Attention

end
-- ==== Proof.KernelValue.lean ====
/-
  What the idealized kernel's result array holds after the run: `Attention.attnFused` of the argument
  arrays, entry by entry.

  The grid has 64 points, point `t` being query tile `t % 16` of batch `t / 16`. Window 0 stages the
  whole sequence block of the batch (`[1, 4096, 256]`, block index `(t / 16, 0, 0)`), windows 1 to 3
  the three weight matrices whole, and window 4 writes back the output tile `(t / 16, t % 16, 0)` of
  `[1, 256, 128]`. The two scratch buffers are written at the first tile of each batch only, so what
  they hold after point `t` is, by induction along the batch's tiles, the transposed keys and the
  values of batch `t / 16`: a later tile keeps them, and its sequence block is the same block. Hence
  every point's output tile is the tile of one whole-array function, the 64 tiles cover the result
  array, and the array ends holding that function.
-/
import proofs.«421127_j67104569033420_3_alg».proof.Proof.Gen.KernelIdeal.Value
import proofs.«421127_j67104569033420_3_alg».proof.Proof.Pieces
import proofs.«421127_j67104569033420_3_alg».proof.Proof.Payloads
import proofs.«421127_j67104569033420_3_alg».proof.Proof.Spec

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

abbrev seqArr (c : Dev nD) : S4x4096x256.Idx → Elt Ideal .f32 := V m c main_arg0
abbrev wqArr (c : Dev nD) : S256x128.Idx → Elt Ideal .f32 := V m c main_arg2
abbrev wkArr (c : Dev nD) : S256x128.Idx → Elt Ideal .f32 := V m c main_arg3
abbrev wvArr (c : Dev nD) : S256x128.Idx → Elt Ideal .f32 := V m c main_arg4

abbrev xblk (c : Dev nD) (t : Fin cfg0.N) : Vec Ideal S1x4096x256 .f32 := iblk m c 0 t
abbrev wqblk (c : Dev nD) (t : Fin cfg0.N) : Vec Ideal S256x128 .f32 := iblk m c 1 t
abbrev wkblk (c : Dev nD) (t : Fin cfg0.N) : Vec Ideal S256x128 .f32 := iblk m c 2 t
abbrev wvblk (c : Dev nD) (t : Fin cfg0.N) : Vec Ideal S256x128 .f32 := iblk m c 3 t

/-- The batch of point `t`. -/
def batchOf (t : Fin cfg0.N) : Fin 4 := ⟨t.val / 16, by have := lt_of_lt_of_eq t.isLt N_0; omega⟩

/-- Row `r` of point `t`'s query tile, as a position of the sequence. -/
def rowOf (t : Fin cfg0.N) (r : Fin 256) : Fin 4096 := ⟨256 * (t.val % 16) + r.val, by have := r.isLt; omega⟩

/-- The printed index maps over the grid: the sequence window follows the batch, the weight windows stay, the
    output window follows batch and tile; the body's tile coordinate is `t % 16`. -/
theorem index_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 16 ∧ win0_4.index t (1 : Fin 3) = t.val % 16 ∧ win0_4.index t (2 : Fin 3) = 0
    ∧ ((grid0.coords t) 1).val = t.val % 16 :=
  (by decide +kernel : ∀ t : Fin grid0.N, _)

/-- The sequence block of point `t` is batch `t / 16` of the sequence array. -/
theorem xblk_apply (c : Dev nD) (t : Fin cfg0.N) (u : Fin 1) (s : Fin 4096) (d : Fin 256) :
    xblk m c t (ix3 u s d) = seqArr m c (ix3 (batchOf t) s d) := by
  obtain ⟨e0, e1, e2, -⟩ := index_facts t
  have hu : u.val = 0 := by omega
  show seqArr m c (((cfg0.win 0).blk t).view.emb (ix3 u s d)) = seqArr m c (ix3 (batchOf t) s d)
  refine congrArg (seqArr m c) (funext fun a => Fin.ext ?_)
  match a with
  | ⟨0, _⟩ => show win0_0.index t (0 : Fin 3) * 1 + 1 * u.val = t.val / 16; omega
  | ⟨1, _⟩ => show win0_0.index t (1 : Fin 3) * 4096 + 1 * s.val = s.val; omega
  | ⟨2, _⟩ => show win0_0.index t (2 : Fin 3) * 256 + 1 * d.val = d.val; omega

/-- Two points of one batch stage the same sequence block. -/
theorem xblk_same_batch (c : Dev nD) (t t' : Fin cfg0.N) (h : t.val / 16 = t'.val / 16) : xblk m c t = xblk m c t' := by
  funext y
  obtain ⟨u, s, d, rfl⟩ : ∃ (u : Fin 1) (s : Fin 4096) (d : Fin 256), y = ix3 u s d := ⟨y 0, y 1, y 2, eq_ix3 y⟩
  rw [xblk_apply, xblk_apply, show batchOf t = batchOf t' from Fin.ext h]

/-- The weight windows stage their arrays whole. -/
theorem wqblk_eq (c : Dev nD) (t : Fin cfg0.N) : wqblk m c t = wqArr m c := by
  obtain ⟨-, -, -, e0, e1, -⟩ := index_facts t
  funext y
  show wqArr m c (((cfg0.win 1).blk t).view.emb y) = wqArr m c y
  refine congrArg (wqArr m c) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem wkblk_eq (c : Dev nD) (t : Fin cfg0.N) : wkblk m c t = wkArr m c := by
  obtain ⟨-, -, -, -, -, e0, e1, -⟩ := index_facts t
  funext y
  show wkArr m c (((cfg0.win 2).blk t).view.emb y) = wkArr m c y
  refine congrArg (wkArr m c) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem wvblk_eq (c : Dev nD) (t : Fin cfg0.N) : wvblk m c t = wvArr m c := by
  obtain ⟨-, -, -, -, -, -, -, e0, e1, -⟩ := index_facts t
  funext y
  show wvArr m c (((cfg0.win 3).blk t).view.emb y) = wvArr m c y
  refine congrArg (wvArr m c) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- The tile's query rows are rows `256 · (tile) + r` of the sequence block. -/
theorem queryTile_apply (i : grid0.Coords) (x : Vec Ideal S1x4096x256 .f32) (r : Fin 256) (d : Fin 256) (row : Fin 4096)
    (hrow : row.val = 256 * (i 1).val + r.val) :
    queryTile i x (ix3 (0 : Fin 1) r d) = x (ix3 (0 : Fin 1) row d) := by
  show x _ = x _
  refine congrArg x (funext fun a => Fin.ext ?_)
  match a with
  | ⟨0, _⟩ => show k0_off1 i (0 : Fin 3) + 1 * 0 = 0; rw [k0_off1_eq]; rfl
  | ⟨1, _⟩ => show k0_off1 i (1 : Fin 3) + 1 * r.val = row.val; rw [k0_off1_eq, hrow]; show 256 * (i 1).val + 1 * r.val = _; omega
  | ⟨2, _⟩ => show k0_off1 i (2 : Fin 3) + 1 * d.val = d.val; rw [k0_off1_eq]; show 0 + 1 * d.val = d.val; omega

/-! ## What the three buffers hold after each point -/

/-- After point `t`: the output tile, the transposed keys and the values, all of the point's staged blocks. -/
def pointTriple (c : Dev nD) (t : Fin cfg0.N) : Vec Ideal S1x256x128 .f32 × Vec Ideal S128x4096 .bf16 × Vec Ideal S4096x128 .bf16 :=
  (k0_pay4 (queryTile (grid0.coords t) (xblk m c t)) (wqblk m c t) (k0_pay2 (xblk m c t) (wkblk m c t)) (k0_pay3 (xblk m c t) (wvblk m c t)),
    k0_pay2 (xblk m c t) (wkblk m c t), k0_pay3 (xblk m c t) (wvblk m c t))

/-- The output tile of the triple, over the weight arrays. -/
theorem pointTriple_fst (c : Dev nD) (t : Fin cfg0.N) :
    (pointTriple m c t).1
      = k0_pay4 (queryTile (grid0.coords t) (xblk m c t)) (wqArr m c) (k0_pay2 (xblk m c t) (wkArr m c)) (k0_pay3 (xblk m c t) (wvArr m c)) := by
  unfold pointTriple
  dsimp only
  rw [wqblk_eq, wkblk_eq, wvblk_eq]

/-- The first tile of a batch computes all three from the blocks it is given. -/
theorem first_tile (c : Dev nD) (t : Fin cfg0.N) (h0 : t.val % 16 = 0) : outsAt0 m c t.val t.isLt = pointTriple m c t :=
  (outsAt0_A m c t h0).trans (congrArg₂ Prod.mk
    (out_piece_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (xblk m c t) (wqblk m c t) (wkblk m c t) (wvblk m c t))
    (congrArg₂ Prod.mk
      (keys_piece (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (xblk m c t) (wqblk m c t) (wkblk m c t) (wvblk m c t))
      (values_piece (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (xblk m c t) (wqblk m c t) (wkblk m c t) (wvblk m c t))))

/-- A later tile keeps the scratch and computes its output from it. -/
theorem later_tile (c : Dev nD) (t : Fin cfg0.N) (h0 : ¬t.val % 16 = 0)
    (prev : Vec Ideal S1x256x128 .f32 × Vec Ideal S128x4096 .bf16 × Vec Ideal S4096x128 .bf16)
    (hprev : outsAt0 m c (t.val - 1) (Nat.lt_of_le_of_lt (Nat.sub_le _ _) t.isLt) = prev) :
    outsAt0 m c t.val t.isLt
      = (k0_pay4 (queryTile (grid0.coords t) (xblk m c t)) (wqblk m c t) prev.2.1 prev.2.2, prev.2.1, prev.2.2) := by
  rw [outsAt0_B m c t h0, hprev]
  exact congrArg₂ Prod.mk
    (out_piece_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (xblk m c t) (wqblk m c t) (wkblk m c t) (wvblk m c t) prev.2.1 prev.2.2)
    rfl

/-- THE INVARIANT, by induction along the points: after point `n` the buffers hold the point's triple. A later tile
    of a batch stages the same sequence block as the tile before it, and the weights never move. -/
theorem point_value (c : Dev nD) : ∀ (n : ℕ) (h : n < cfg0.N), outsAt0 m c n h = pointTriple m c ⟨n, h⟩
  | 0, h => first_tile m c ⟨0, h⟩ rfl
  | n + 1, h => by
    by_cases h0 : (n + 1) % 16 = 0
    · exact first_tile m c ⟨n + 1, h⟩ h0
    · have ih := point_value c n (Nat.lt_of_succ_lt h)
      have hx : xblk m c ⟨n, Nat.lt_of_succ_lt h⟩ = xblk m c ⟨n + 1, h⟩ :=
        xblk_same_batch m c _ _ (by show n / 16 = (n + 1) / 16; omega)
      refine (later_tile m c ⟨n + 1, h⟩ h0 (pointTriple m c ⟨n, Nat.lt_of_succ_lt h⟩) ih).trans ?_
      unfold pointTriple
      dsimp only
      rw [hx, wkblk_eq m c ⟨n, Nat.lt_of_succ_lt h⟩, wkblk_eq m c ⟨n + 1, h⟩, wvblk_eq m c ⟨n, Nat.lt_of_succ_lt h⟩,
        wvblk_eq m c ⟨n + 1, h⟩]

/-! ## Each written-back tile is the tile of one whole-array function -/

/-- The result the run leaves: attention (division after the weighted sum) of the argument arrays. -/
abbrev result (c : Dev nD) : S4x4096x128.Idx → Elt Ideal .f32 :=
  Attention.attnFused (seqArr m c) (wqArr m c) (wkArr m c) (wvArr m c)

/-- Point `t`'s output tile, entry by entry, is the result array's tile `(t / 16, t % 16)`. -/
theorem tile_value (c : Dev nD) (t : Fin cfg0.N) (j : S1x256x128.Idx) :
    (cfg0.win 4).cut (grid0.coords t) (pointTriple m c t).1 j = ((cfg0.win 4).blk t).view.read (Elt Ideal) (result m c) j := by
  obtain ⟨u, r, e, rfl⟩ : ∃ (u : Fin 1) (r : Fin 256) (e : Fin 128), j = ix3 u r e := ⟨j 0, j 1, j 2, eq_ix3 j⟩
  obtain rfl : u = 0 := Fin.ext (by omega)
  obtain ⟨-, -, -, -, -, -, -, -, -, e0, e1, e2, ec⟩ := index_facts t
  have hemb : ((cfg0.win 4).blk t).view.emb (ix3 (0 : Fin 1) r e) = ix3 (batchOf t) (rowOf t r) e := by
    funext a; apply Fin.ext
    match a with
    | ⟨0, _⟩ => show win0_4.index t (0 : Fin 3) * 1 + 1 * 0 = t.val / 16; omega
    | ⟨1, _⟩ => show win0_4.index t (1 : Fin 3) * 256 + 1 * r.val = 256 * (t.val % 16) + r.val; omega
    | ⟨2, _⟩ => show win0_4.index t (2 : Fin 3) * 128 + 1 * e.val = e.val; omega
  rw [pointTriple_fst]
  show k0_pay4 (queryTile (grid0.coords t) (xblk m c t)) (wqArr m c) (k0_pay2 (xblk m c t) (wkArr m c)) (k0_pay3 (xblk m c t) (wvArr m c)) (ix3 (0 : Fin 1) r e)
    = result m c (((cfg0.win 4).blk t).view.emb (ix3 (0 : Fin 1) r e))
  rw [hemb, out_apply]
  show _ = Attention.fused (fun s : Fin 4096 => Attention.score (seqArr m c) (wqArr m c) (wkArr m c) (batchOf t) (rowOf t r) s)
    (fun s : Fin 4096 => Attention.proj (seqArr m c) (wvArr m c) (batchOf t) s e)
  refine congrArg₂ Attention.fused (funext fun s => ?_) (funext fun s => ?_)
  · unfold Attention.score Attention.proj
    refine Finset.sum_congr rfl fun e' _ => congrArg₂ (· * ·) ?_ ?_
    · refine Finset.sum_congr rfl fun d _ => congrArg (· * wqArr m c (ix2 d e')) ?_
      rw [queryTile_apply (grid0.coords t) (xblk m c t) r d (rowOf t r) (by show 256 * (t.val % 16) + r.val = _; rw [ec])]
      exact xblk_apply m c t 0 (rowOf t r) d
    · rw [keysT_apply]
      exact Finset.sum_congr rfl fun d _ => congrArg (· * wkArr m c (ix2 d e')) (xblk_apply m c t 0 s d)
  · rw [values_apply]
    unfold Attention.proj
    exact Finset.sum_congr rfl fun d _ => congrArg (· * wvArr m c (ix2 d e)) (xblk_apply m c t 0 s d)

/-- WHAT POINT `t` WRITES BACK is tile `t` of the result. -/
theorem flushed_eq (c : Dev nD) (t : Fin cfg0.N) :
    (dats m 0 c).flushed 4 t = ((cfg0.win 4).blk t).view.read (Elt Ideal) (result m c) := by
  rw [Value.flushed4, point_value m c t.val t.isLt]
  exact funext (tile_value m c t)

/-! ## The 64 tiles cover the result array -/

/-- An index is in point `t`'s tile iff each coordinate is in the tile's range on its axis. -/
theorem mem_tile (t : Fin cfg0.N) (i : S4x4096x128.Idx) :
    i ∈ ((cfg0.win 4).blk t).view.set ↔ ∀ a : Fin 3, win0_4.index t a * S1x256x128.size a ≤ (i a).val
      ∧ (i a).val < win0_4.index t a * S1x256x128.size a + S1x256x128.size a := by
  show i ∈ ((View.whole main_v0).slice (win0_4.rect t)).set ↔ _
  rw [View.set_slice_whole, Rect.mem_set_unit]
  exact Iff.rfl

/-- Entry `(b, p, e)` lies in the tile of point `16 b + p / 256`. -/
theorem covered (i : S4x4096x128.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 128 := (i 2).isLt
  have hN : (i 0).val * 16 + (i 1).val / 256 < cfg0.N := by rw [show cfg0.N = 64 from N_0]; omega
  refine ⟨⟨(i 0).val * 16 + (i 1).val / 256, hN⟩, flush0_4 _, ?_⟩
  obtain ⟨-, -, -, -, -, -, -, -, -, e0, e1, e2, -⟩ := index_facts ⟨(i 0).val * 16 + (i 1).val / 256, hN⟩
  have v : (⟨(i 0).val * 16 + (i 1).val / 256, hN⟩ : Fin cfg0.N).val = (i 0).val * 16 + (i 1).val / 256 := rfl
  rw [mem_tile]
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 256 ≤ (i 1).val ∧ (i 1).val < win0_4.index _ (1 : Fin 3) * 256 + 256
    omega
  | ⟨2, _⟩ =>
    show win0_4.index _ (2 : Fin 3) * 128 ≤ (i 2).val ∧ (i 2).val < win0_4.index _ (2 : Fin 3) * 128 + 128
    omega

/-- So the result array ends holding the attention of the argument arrays. -/
theorem final (c : Dev nD) : (dats m 0 c).arrAt 4 cfg0.N = result m c :=
  (dats m 0 c).arrAt_eq_of_cover 4 (result m c) (fun t _ => flushed_eq m c t) covered

/-! ## The run, read -/

/-- Every weakly fair execution of the idealized kernel ends with the result array at the attention of the arguments
    as launched, and the arguments unchanged. -/
theorem run : θ_run defs (onTc (τ := τ) (main (F := Ideal))) ⟨m, fun _ => 0, ρ⟩ fun r => ∀ c : Dev nD,
      r.2.mem ((c : Thread nD τ).loc main_v0)
        = Attention.attnFused (m ((c : Thread nD τ).loc main_arg0)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Attn

end
-- ==== Proof.RefValue.lean ====
/-
  What the idealized reference computes: `Attention.attnSoftmaxFirst` of its arguments, entry by entry.

  The reference projects the whole sequence to queries, keys and values, takes all `[4, 4096, 4096]` scores,
  the softmax along the last axis (maximum from `-∞`, joined once more with `-∞`, which changes nothing;
  exponentials of the differences; their sum from `0`; the quotients) and the product with the values. Read at
  an entry, stage by stage: a score is `Attention.score`, the row maximum its running maximum, an
  exponential the row's softmax weight, the sum the sum of the weights, and the last product the
  softmax-first weighted sum.
-/
import proofs.«421127_j67104569033420_3_alg».proof.Proof.Gen.ReferenceIdeal.Read
import proofs.«421127_j67104569033420_3_alg».proof.Proof.Spec
import proofs.«421127_j67104569033420_3_alg».proof.Proof.RowOps
import Idealize.ShloMosaic.PureOps.Reduce

noncomputable section

namespace Cert.ReferenceIdeal.Attn

open Cert.ReferenceIdeal Cert.ReferenceIdeal.Gen Cert.ReferenceIdeal.Read Idealize.ShloMosaic Idealize.ShloMosaic.ValueIdx

variable (x0 : (⟨S4x4096x256, .f32⟩ : BufTy).Contents (Elt Ideal)) (x2 x3 x4 : (⟨S256x128, .f32⟩ : BufTy).Contents (Elt Ideal))

/-- The score row of query `r` in batch `b`. -/
abbrev scoreRow (b : Fin 4) (r : Fin 4096) : Fin 4096 → EReal := fun s => Attention.score x0 x2 x3 b r s

/-! ## The three projections -/

theorem queries_apply (b : Fin 4) (s : Fin 4096) (e : Fin 128) :
    val_main_v0 (F := Ideal) x0 x2 (ix3 b s e) = Attention.proj x0 x2 b s e := by
  rw [val_main_v0_apply]
  unfold Attention.proj
  refine Finset.sum_congr rfl fun d _ => congrArg₂ (· * ·) (congrArg x0 ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem keys_apply (b : Fin 4) (s : Fin 4096) (e : Fin 128) :
    val_main_v1 (F := Ideal) x0 x3 (ix3 b s e) = Attention.proj x0 x3 b s e := by
  rw [val_main_v1_apply]
  unfold Attention.proj
  refine Finset.sum_congr rfl fun d _ => congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem values_apply (b : Fin 4) (s : Fin 4096) (e : Fin 128) :
    val_main_v2 (F := Ideal) x0 x4 (ix3 b s e) = Attention.proj x0 x4 b s e := by
  rw [val_main_v2_apply]
  unfold Attention.proj
  refine Finset.sum_congr rfl fun d _ => congrArg₂ (· * ·) (congrArg x0 ?_) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-! ## The scores and the softmax along the keys -/

theorem scores_apply (b : Fin 4) (r s : Fin 4096) :
    val_main_v3 (F := Ideal) x0 x2 x3 (ix3 b r s) = Attention.score x0 x2 x3 b r s := by
  rw [val_main_v3_apply]
  unfold Attention.score
  refine Finset.sum_congr rfl fun e _ => congrArg₂ (· * ·) ?_ ?_
  · have hi : lidx_main_v3 (ix3 b r s) e = ix3 b r e :=
      funext fun a => Fin.ext (by match a with | ⟨0, _⟩ => rfl | ⟨1, _⟩ => rfl | ⟨2, _⟩ => rfl)
    rw [hi]; exact queries_apply x0 x2 b r e
  · have hi : ridx_main_v3 (ix3 b r s) e = ix3 b s e :=
      funext fun a => Fin.ext (by match a with | ⟨0, _⟩ => rfl | ⟨1, _⟩ => rfl | ⟨2, _⟩ => rfl)
    rw [hi]; exact keys_apply x0 x3 b s e

/-- Query `(b, r)` with key `k` put back is the score entry `(b, r, k)`. -/
theorem lift_key (h : S4x4096x4096.Reduces [2] S4x4096) (b : Fin 4) (r : Fin 4096) (k : Fin (S4x4096x4096.size 2)) :
    h.lift (ix2 b r) k = ix3 b r (⟨k.val, k.isLt⟩ : Fin 4096) := by
  funext c; apply Fin.ext
  fin_cases c <;> rfl

/-- The row maximum the reference takes (from `-∞`, then joined with `-∞` again) is the row's running maximum. -/
theorem rowMax_apply (b : Fin 4) (r : Fin 4096) :
    val_main_v6 (F := Ideal) x0 x2 x3 (ix2 b r) = Attention.rowMax (scoreRow x0 x2 x3 b r) := by
  have hred : S4x4096x4096.Reduces [2] S4x4096 := by decide
  have h5 : val_main_v5 (F := Ideal) (ix2 b r) = (⊥ : EReal) :=
    (val_main_v5_apply (F := Ideal) (ix2 b r)).trans ((val_main_cst_0_apply (F := Ideal) _).trans Attention.ofBits_neg_inf)
  have h4 : val_main_v4 (F := Ideal) x0 x2 x3 (ix2 b r) = Attention.rowMax (scoreRow x0 x2 x3 b r) := by
    unfold val_main_v4
    rw [Host.reduce_eq_fold_single FloatOps.maximumf _ _ reducesTo_S4x4096x4096_S4x4096_d2 hred h_S_]
    have hb : val_main_cst (F := Ideal) (Shape.Idx.first h_S_) = (⊥ : EReal) :=
      (val_main_cst_apply (F := Ideal) _).trans Attention.ofBits_neg_inf
    have hf : (val_main_v3 (F := Ideal) x0 x2 x3 ∘ hred.lift (ix2 b r)) = fun k : Fin 4096 => scoreRow x0 x2 x3 b r k :=
      funext fun k => (congrArg (val_main_v3 (F := Ideal) x0 x2 x3) (lift_key hred b r k)).trans (scores_apply x0 x2 x3 b r _)
    rw [hb]
    unfold Attention.rowMax
    exact congrArg (fun f => Finset.fold max (⊥ : EReal) f (Finset.univ : Finset (Fin 4096))) hf
  rw [val_main_v6_apply, h5, h4]
  exact max_eq_right bot_le

/-- An exponential of the reference is the softmax weight of its score row. -/
theorem weights_apply (b : Fin 4) (r s : Fin 4096) :
    val_main_v10 (F := Ideal) x0 x2 x3 (ix3 b r s) = Attention.weight (scoreRow x0 x2 x3 b r) s := by
  have hi : idx_main_v7 (idx_main_v8 (ix3 b r s)) = ix2 b r :=
    funext fun a => Fin.ext (by match a with | ⟨0, _⟩ => rfl | ⟨1, _⟩ => rfl)
  rw [val_main_v10_apply, val_main_v9_apply, val_main_v8_apply, val_main_v7_apply, hi, scores_apply, rowMax_apply]
  rfl

/-- The sum the reference divides by is the sum of the row's weights. -/
theorem denom_apply (b : Fin 4) (r : Fin 4096) :
    val_main_v11 (F := Ideal) x0 x2 x3 (ix2 b r) = ∑ s : Fin 4096, Attention.weight (scoreRow x0 x2 x3 b r) s := by
  rw [val_main_v11_apply]
  have h0 : val_main_cst_1 (F := Ideal) (Shape.Idx.first h_S_) = (0 : EReal) :=
    (val_main_cst_1_apply (F := Ideal) _).trans Ideal.ofBits_zero_f32
  rw [h0, zero_add]
  refine Finset.sum_congr rfl fun k _ => ?_
  have hi : idx_main_v11 (ix2 b r) k = ix3 b r k :=
    funext fun a => Fin.ext (by match a with | ⟨0, _⟩ => rfl | ⟨1, _⟩ => rfl | ⟨2, _⟩ => rfl)
  rw [hi]; exact weights_apply x0 x2 x3 b r k

/-- A softmax probability of the reference: the weight over the sum of the row's weights. -/
theorem probs_apply (b : Fin 4) (r s : Fin 4096) :
    val_main_v14 (F := Ideal) x0 x2 x3 (ix3 b r s)
      = Ideal.div (Attention.weight (scoreRow x0 x2 x3 b r) s) (∑ s' : Fin 4096, Attention.weight (scoreRow x0 x2 x3 b r) s') := by
  have hi : idx_main_v12 (idx_main_v13 (ix3 b r s)) = ix2 b r :=
    funext fun a => Fin.ext (by match a with | ⟨0, _⟩ => rfl | ⟨1, _⟩ => rfl)
  rw [val_main_v14_apply, val_main_v13_apply, val_main_v12_apply, hi, weights_apply, denom_apply]
  rfl

/-! ## The result -/

/-- THE REFERENCE'S RESULT is attention with the softmax normalised first. -/
theorem result_eq : val_main_v15 (F := Ideal) x0 x2 x3 x4 = Attention.attnSoftmaxFirst x0 x2 x3 x4 := by
  funext i
  obtain ⟨b, r, e, rfl⟩ : ∃ (b : Fin 4) (r : Fin 4096) (e : Fin 128), i = ix3 b r e := ⟨i 0, i 1, i 2, eq_ix3 i⟩
  rw [val_main_v15_apply]
  show _ = Attention.softmaxFirst (scoreRow x0 x2 x3 b r) (fun s : Fin 4096 => Attention.proj x0 x4 b s e)
  unfold Attention.softmaxFirst
  refine Finset.sum_congr rfl fun k _ => congrArg₂ (· * ·) ?_ ?_
  · have hi : lidx_main_v15 (ix3 b r e) k = ix3 b r k :=
      funext fun a => Fin.ext (by match a with | ⟨0, _⟩ => rfl | ⟨1, _⟩ => rfl | ⟨2, _⟩ => rfl)
    rw [hi]; exact probs_apply x0 x2 x3 b r k
  · have hi : ridx_main_v15 (ix3 b r e) k = ix3 b k e :=
      funext fun a => Fin.ext (by match a with | ⟨0, _⟩ => rfl | ⟨1, _⟩ => rfl | ⟨2, _⟩ => rfl)
    rw [hi]; exact values_apply x0 x4 b k e

end Cert.ReferenceIdeal.Attn

end
-- ==== Proof.Finite.lean ====
/-
  The precondition read back: when `finite_inputs` holds of the argument arrays, every entry of the four
  float arrays is a real number.

  The predicate is a conjunction of four `all (|a| < +∞)` tests. Each `all` is a reduction by `and` from
  `true`, so its being `true` makes the test `true` at every entry; and `|x| < +∞` on the extended reals
  (where `|x| = max x (-x)`, and `|±∞| = +∞`) says exactly that `x` is neither infinity.
-/
import proofs.«421127_j67104569033420_3_alg».proof.Pre_finite_inputs
import proofs.«421127_j67104569033420_3_alg».proof.Proof.Gen.Pre_finite_inputs
import proofs.«421127_j67104569033420_3_alg».proof.Proof.RealLaws
import Idealize.ShloMosaic.Lib.ReduceAll
import Idealize.ShloMosaic.Lib.ValueIdx
import Idealize.ShloMosaic.PureOps.Ideal.Laws

noncomputable section

namespace Cert.Pre_finite_inputs.Attn

open Cert.Pre_finite_inputs Idealize.ShloMosaic Attention

/-- The rank-zero shape has one index. -/
instance : Subsingleton S_.Idx := ⟨fun a b => funext fun d => d.elim0⟩

/-- The f32 word `0x7F800000` denotes `+∞`. -/
theorem ofBits_pos_inf : Ideal.ofBits .f32 0x7F800000#32 = (⊤ : EReal) := by
  simp [Ideal.ofBits, Ideal.ieee]

/-- An extended real whose absolute value is below `+∞` is a real number. -/
theorem isReal_of_abs_lt (x : EReal) (h : Ideal.cmp .olt (max x (-x)) (Ideal.ofBits .f32 0x7F800000#32) = 1#1) : IsReal x := by
  rw [ofBits_pos_inf] at h
  have hb : decide (max x (-x) < (⊤ : EReal)) = true := by
    unfold Ideal.cmp at h
    revert h
    cases decide (max x (-x) < (⊤ : EReal)) <;> simp
  have hlt : max x (-x) < (⊤ : EReal) := of_decide_eq_true hb
  induction x using EReal.rec with
  | bot => exact absurd hlt (by simp)
  | coe r => exact ⟨r, rfl⟩
  | top => exact absurd hlt (by simp)

/-- One `all (|a| < +∞)` test that came out `true` makes every entry of `a` real. -/
theorem isReal_of_all {s : Shape} {axes : List (Fin s.rank)} (a : FVec Ideal s .f32) (bound : FVec Ideal s .f32)
    (hbound : ∀ i, bound i = Ideal.ofBits .f32 0x7F800000#32) (init : IVec S_ 1) (h : s.ReducesTo axes S_) (hu : 0 < S_.numel)
    (e : Host.reduce IntOp.andi (cmpf .olt (Host.absf a) bound) init h hu ValueIdx.ix0 = 1#1) (i : s.Idx) : IsReal (a i) := by
  have hi := Host.reduce_andi_all _ init h hu ValueIdx.ix0 e i
  refine isReal_of_abs_lt (a i) ?_
  rw [← hbound i]
  exact hi

/-- THE PRECONDITION, READ: every entry of the sequence and of the three weight matrices is real. -/
theorem real_of_pre (a0 : FVec Ideal S4x4096x256 .f32) (a1 : IVec S4 32) (a2 a3 a4 : FVec Ideal S256x128 .f32)
    (h : fn (F := Ideal) a0 a1 a2 a3 a4 = fun _ => 1#1) :
    (∀ i, IsReal (a0 i)) ∧ (∀ i, IsReal (a2 i)) ∧ (∀ i, IsReal (a3 i)) ∧ (∀ i, IsReal (a4 i)) := by
  have h1 := congrFun h ValueIdx.ix0
  dsimp only [fn, fn_part1] at h1
  obtain ⟨h13, h17⟩ := IntOp.andi_eq_one.1 h1
  obtain ⟨h8, h12⟩ := IntOp.andi_eq_one.1 h13
  obtain ⟨h3, h7⟩ := IntOp.andi_eq_one.1 h8
  exact ⟨fun i => isReal_of_all a0 _ (fun _ => rfl) _ _ _ h3 i, fun i => isReal_of_all a2 _ (fun _ => rfl) _ _ _ h7 i,
    fun i => isReal_of_all a3 _ (fun _ => rfl) _ _ _ h12 i, fun i => isReal_of_all a4 _ (fun _ => rfl) _ _ _ h17 i⟩

end Cert.Pre_finite_inputs.Attn

end
-- ==== Proof.lean ====
/-
  Fused self-attention (queries, keys and values projected from one sequence; unscaled scores; softmax; mix of
  the values) against its jnp reference, over the extended reals.

  The kernel keeps a batch's transposed keys and values in scratch memory, computed at the batch's first query
  tile, and for each tile of 256 queries takes the scores against all 4096 keys, their row maxima, the
  exponentials `w`, the weighted sum `∑ w · v` and ONE division by `∑ w` at the end. The reference normalises
  first: `∑ (w / ∑ w) · v`. With every input entry a real number (the precondition) all scores and values are real,
  every weight is a positive real, and the two are one function (`Attention.attnFused_eq_softmaxFirst`); a change
  of float format, the grouping of a sum and the tiling do not matter at the ideal values.

    * the three frames: the generated frame runs (the reference's is its generated run with the result dropped);
    * `preserves`: the idealization rewrote nothing;
    * `algebraic`: the kernel's run ends at `attnFused` of the arguments (`KernelValue`), the reference's at
      `attnSoftmaxFirst` of arguments that agree (`RefValue`), and the precondition makes them equal (`Finite`, `Spec`).
-/
import proofs.«421127_j67104569033420_3_alg».proof.Defs
import proofs.«421127_j67104569033420_3_alg».proof.Proof.Gen.Kernel
import proofs.«421127_j67104569033420_3_alg».proof.Proof.Gen.Kernel.Skeleton
import proofs.«421127_j67104569033420_3_alg».proof.Proof.Gen.Kernel.Launch
import proofs.«421127_j67104569033420_3_alg».proof.Proof.Gen.Kernel.Points
import proofs.«421127_j67104569033420_3_alg».proof.Proof.Gen.Kernel.Frame
import proofs.«421127_j67104569033420_3_alg».proof.Proof.Gen.KernelIdeal
import proofs.«421127_j67104569033420_3_alg».proof.Proof.Gen.KernelIdeal.Skeleton
import proofs.«421127_j67104569033420_3_alg».proof.Proof.Gen.KernelIdeal.Launch
import proofs.«421127_j67104569033420_3_alg».proof.Proof.Gen.KernelIdeal.Points
import proofs.«421127_j67104569033420_3_alg».proof.Proof.Gen.KernelIdeal.Frame
import proofs.«421127_j67104569033420_3_alg».proof.Proof.Gen.ReferenceIdeal
import proofs.«421127_j67104569033420_3_alg».proof.Proof.Gen.Pre_finite_inputs
import proofs.«421127_j67104569033420_3_alg».proof.Proof.Gen.KernelIdeal.Value
import proofs.«421127_j67104569033420_3_alg».proof.Proof.Gen.ReferenceIdeal.Run
import proofs.«421127_j67104569033420_3_alg».proof.Proof.Gen.ReferenceIdeal.Read
import proofs.«421127_j67104569033420_3_alg».proof.Proof.KernelValue
import proofs.«421127_j67104569033420_3_alg».proof.Proof.RefValue
import proofs.«421127_j67104569033420_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's at the fused form and the reference's at the softmax-first form of arguments that
    agree; on finite inputs the two forms are equal. -/
theorem algebraic : Cert.algebraic_KernelIdeal_ReferenceIdeal := by
  intro m ρ m' ρ' hpre hagree
  refine ⟨_, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq (F := Ideal) _ _ _ _).trans ?_
  rw [Cert.ReferenceIdeal.Attn.result_eq, (hagree c).1, (hagree c).2.2.1, (hagree c).2.2.2.1, (hagree c).2.2.2.2]
  obtain ⟨h0, h2, h3, h4⟩ := Cert.Pre_finite_inputs.Attn.real_of_pre _ _ _ _ _ (hpre c)
  exact (Attention.attnFused_eq_softmaxFirst _ _ _ _ h0 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
